-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S64x512 : Shape := ⟨2, ![64, 512]⟩
abbrev S512x64 : Shape := ⟨2, ![512, 64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S4x4096x512 .f32) (main_arg1 : FVec F S64x512 .f32) (main_arg2 : FVec F S512x64 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S4x4096x512 : Shape := ⟨3, ![4, 4096, 512]⟩
abbrev S64x512 : Shape := ⟨2, ![64, 512]⟩
abbrev S512x64 : Shape := ⟨2, ![512, 64]⟩
abbrev S_ : Shape := ⟨0, ![]⟩
abbrev S128x512 : Shape := ⟨2, ![128, 512]⟩
abbrev S4x4096x128 : Shape := ⟨3, ![4, 4096, 128]⟩
abbrev S1x2048x512 : Shape := ⟨3, ![1, 2048, 512]⟩
abbrev S1x2048x128 : Shape := ⟨3, ![1, 2048, 128]⟩
abbrev S2048x512 : Shape := ⟨2, ![2048, 512]⟩
abbrev S2048x128 : Shape := ⟨2, ![2048, 128]⟩
abbrev S1x4096x128 : Shape := ⟨3, ![1, 4096, 128]⟩
abbrev S1x512x512 : Shape := ⟨3, ![1, 512, 512]⟩
abbrev S1x512x128 : Shape := ⟨3, ![1, 512, 128]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S512x64, .f32⟩
  | .hbm, ⟨3, _⟩ => ⟨S_, .f32⟩
  | .hbm, ⟨4, _⟩ => ⟨S64x512, .f32⟩
  | .hbm, ⟨5, _⟩ => ⟨S128x512, .f32⟩
  | .hbm, ⟨6, _⟩ => ⟨S4x4096x128, .bf16⟩
  | .hbm, ⟨7, _⟩ => ⟨S512x64, .bf16⟩
  | .hbm, ⟨8, _⟩ => ⟨S4x4096x512, .f32⟩
  | .local _ .vmem, ⟨0, _⟩ => ⟨S1x2048x512, .f32⟩
  | .local _ .vmem, ⟨1, _⟩ => ⟨S1x2048x512, .f32⟩
  | .local _ .vmem, ⟨2, _⟩ => ⟨S128x512, .f32⟩
  | .local _ .vmem, ⟨3, _⟩ => ⟨S1x2048x128, .bf16⟩
  | .local _ .vmem, ⟨4, _⟩ => ⟨S1x2048x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S512x64, .bf16⟩
  | .local _ .vmem, ⟨8, _⟩ => ⟨S1x512x512, .f32⟩
  | .local _ .vmem, ⟨9, _⟩ => ⟨S1x512x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 8], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S64x512 : S_.BroadcastsInDim S64x512 (![] : Fin 0 → Fin S64x512.rank)
  concatenates_S64x512_S64x512_S128x512_d0 : Shape.Concatenates [S64x512, S64x512] S128x512 0
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  iota_S2048x128_d1_w32 : S2048x128.Iotas .tc 32 [1]
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  h_S1x512x128 : 0 < S1x512x128.numel
  shapeCasts_S1x512x128_S512x128 : S1x512x128.ShapeCasts S512x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S512x4096_S512 : S512x4096.Reduces [1] S512
  shapeCasts_S512_S512x1 : S512.ShapeCasts S512x1
  broadcasts_S512x1_S512x4096 : S512x1.Broadcasts S512x4096
  slices_S512x128_o0_0_S512x64 : S512x128.Slices ![0, 0] S512x64
  slices_S512x128_o0_64_S512x1 : S512x128.Slices ![0, 64] S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x512_S128x512_S2048x128_1_1_0_0_n_n_wf : DotDims.WF S2048x512 S128x512 S2048x128 [1] [1] [0] [0] [] []
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x4096x512.size a
  hwx0_0 : ∀ i : grid0.Coords, EltTy.bits .f32 = 32 ∨ (Rect.block (s := S4x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x4096x128.size a
  hwx0_2 : ∀ i : grid0.Coords, EltTy.bits .bf16 = 32 ∨ (Rect.block (s := S4x4096x128) S1x2048x128.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x128.size a ≤ S1x4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S4x4096x128.size a
  hwx1_0 : ∀ i : grid1.Coords, EltTy.bits .bf16 = 32 ∨ (Rect.block (s := S4x4096x128) S1x4096x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .bf16 = 32 ∨ (Rect.block (s := S512x64) S512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x4096x512.size a
  hwx1_2 : ∀ i : grid1.Coords, EltTy.bits .f32 = 32 ∨ (Rect.block (s := S4x4096x512) S1x512x512.size (cc1_transform_2 i) (hinb1_2 i)).WholeWords (EltTy.packing .f32)

variable [Facts₀]

def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S64x512 : Shape := ⟨2, ![64, 512]⟩
abbrev S512x64 : Shape := ⟨2, ![512, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S512x64, .f32⟩
  | .hbm, ⟨3, _⟩ => ⟨S4x4096x64, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096x1, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x64, .f32⟩
  | .hbm, ⟨20, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S64x512_S4x4096x64_2_1_01_0_n_n_wf : DotDims.WF S4x4096x512 S64x512 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S512x64_S4x4096x512_2_1_01_0_n_n_wf : DotDims.WF S4x4096x64 S512x64 S4x4096x512 [2] [1] [0, 1] [0] [] []

variable [Facts₀]

def dot_S4x4096x512_S64x512_S4x4096x64_2_1_01_0_n_n : DotDims S4x4096x512 S64x512 S4x4096x64 where
  lhsContracting := [2]
  rhsContracting := [1]
  lhsNonContracting := [0, 1]
  rhsNonContracting := [0]
  lhsBatch := []
  rhsBatch := []
  wf := dot_S4x4096x512_S64x512_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S512x64_S4x4096x512_2_1_01_0_n_n : DotDims S4x4096x64 S512x64 S4x4096x512 where
  lhsContracting := [2]
  rhsContracting := [1]
  lhsNonContracting := [0, 1]
  rhsNonContracting := [0]
  lhsBatch := []
  rhsBatch := []
  wf := dot_S4x4096x64_S512x64_S4x4096x512_2_1_01_0_n_n_wf

class Facts : Prop extends Facts₀ where

variable [Facts]
-- ==== Proof.Spec.lean ====
/-
  Low-rank token mixing, as functions on the extended reals.

  The reference computes, per batch b, the projection  proj n r = ∑ d, x n d * W_B r d  (r < 64), the scores
  s n m = ∑ r, proj n r * proj m r, their row-wise softmax  w n m = exp (s n m - max_m s n m) / ∑ m, exp (…),
  the mixture  ∑ m, w n m * proj m r,  and its image under W_C.

  The kernel stores the projection padded to 128 columns: columns 0..63 the projection, column 64 the
  constant 1, columns 65..127 zero (zero weight rows). Its scores are therefore s n m + 1, its unnormalised
  weights p n m = exp (s n m + 1 - max_m (s n m + 1)), and ONE product  ∑ m, p n m * padded m r  yields both
  the unnormalised mixture (r < 64) and the softmax denominator (r = 64); it divides the former by the latter.
  One output entry depends on one query row, the batch's key rows and one row of W_C: `rowOut`.
-/
import Idealize.ShloMosaic.PureOps.Ideal
import Idealize.ShloMosaic.Lib.ValueIdx

noncomputable section

namespace Cert.TokenMix

open Idealize.ShloMosaic Idealize.ShloMosaic.ValueIdx

abbrev SX : Shape := ⟨3, ![4, 4096, 512]⟩
abbrev SWb : Shape := ⟨2, ![64, 512]⟩
abbrev SWc : Shape := ⟨2, ![512, 64]⟩
abbrev SWp : Shape := ⟨2, ![128, 512]⟩
abbrev SB : Shape := ⟨3, ![4, 4096, 128]⟩

/-! ## The reference's arrangement -/

section Reference
variable (x : SX.Idx → EReal) (wb : SWb.Idx → EReal) (wc : SWc.Idx → EReal)

/-- The low-rank projection of token n of batch b. -/
def proj (b : Fin 4) (n : Fin 4096) (r : Fin 64) : EReal := ∑ d : Fin 512, x (ix3 b n d) * wb (ix2 r d)
/-- The score of tokens n and m. -/
def score (b : Fin 4) (n m : Fin 4096) : EReal := ∑ r : Fin 64, proj x wb b n r * proj x wb b m r
/-- A row's largest score. -/
def rowMax (b : Fin 4) (n : Fin 4096) : EReal := (Finset.univ : Finset (Fin 4096)).fold max ⊥ (fun m => score x wb b n m)
/-- The unnormalised softmax weight. -/
def weight (b : Fin 4) (n m : Fin 4096) : EReal := Ideal.exp (score x wb b n m - rowMax x wb b n)
/-- The softmax denominator. -/
def rowSum (b : Fin 4) (n : Fin 4096) : EReal := ∑ m : Fin 4096, weight x wb b n m
/-- The mixture of the projections under the normalised weights. -/
def mixed (b : Fin 4) (n : Fin 4096) (r : Fin 64) : EReal :=
  ∑ m : Fin 4096, Ideal.div (weight x wb b n m) (rowSum x wb b n) * proj x wb b m r
/-- The reference's result at (b, n, d). -/
def refAt (b : Fin 4) (n : Fin 4096) (d : Fin 512) : EReal := ∑ r : Fin 64, mixed x wb b n r * wc (ix2 d r)
/-- The reference's result array. -/
def refOut : SX.Idx → EReal := fun i => refAt x wb wc (i 0) (i 1) (i 2)
end Reference

/-! ## The kernel's arrangement -/

/-- The constant the kernel adds to column 64 of the padded projection. -/
def hot (r : Fin 128) : EReal := if r.val = 64 then 1 else 0

/-- One row of the padded projection: a token's features against the 128 padded weight rows, plus the constant column. -/
def padRow (xrow : Fin 512 → EReal) (w : Fin 128 → Fin 512 → EReal) (r : Fin 128) : EReal :=
  (∑ d : Fin 512, xrow d * w r d) + hot r

/-- W_B with 64 zero rows appended. -/
def wpad (wb : SWb.Idx → EReal) : SWp.Idx → EReal :=
  fun j => if h : (j 0).val < 64 then wb (ix2 (⟨(j 0).val, h⟩ : Fin 64) (j 1)) else 0

/-- The padded projection array. -/
def bpad (x : SX.Idx → EReal) (w : SWp.Idx → EReal) : SB.Idx → EReal :=
  fun j => padRow (fun d => x (ix3 (j 0) (j 1) d)) (fun r d => w (ix2 r d)) (j 2)

section Row
variable (q : Fin 128 → EReal) (K : Fin 4096 → Fin 128 → EReal)

/-- A query row's score against key row m, over all 128 padded columns. -/
def rscore (m : Fin 4096) : EReal := ∑ r : Fin 128, q r * K m r
/-- The row's largest score. -/
def rmax : EReal := (Finset.univ : Finset (Fin 4096)).fold max ⊥ (rscore q K)
/-- The row's unnormalised weights. -/
def rweight (m : Fin 4096) : EReal := Ideal.exp (rscore q K m - rmax q K)
/-- The weights against the key rows: columns 0..63 the unnormalised mixture, column 64 the denominator. -/
def racc (r : Fin 128) : EReal := ∑ m : Fin 4096, rweight q K m * K m r
/-- The mixture: the unnormalised one divided by column 64. -/
def rmixed (r : Fin 64) : EReal := Ideal.div (racc q K ⟨r.val, by omega⟩) (racc q K ⟨64, by decide⟩)
/-- One output entry: the mixture against one row of W_C. -/
def rowOut (wrow : Fin 64 → EReal) : EReal := ∑ r : Fin 64, rmixed q K r * wrow r
end Row

/-- The kernel's result array, from the padded projection array and W_C. -/
def kernOut (B : SB.Idx → EReal) (wc : SWc.Idx → EReal) : SX.Idx → EReal :=
  fun i => rowOut (fun r => B (ix3 (i 0) (i 1) r)) (fun m r => B (ix3 (i 0) m r)) (fun r => wc (ix2 (i 2) r))

end Cert.TokenMix

end
-- ==== Proof.HostRead.lean ====
/-
  What each kernel region finds in its operands when it is entered.

  Before the first region the program pads W_B with 64 zero rows; the first region therefore reads x as launched and
  the padded weights. Between the regions the program only converts W_C to the narrow format, which on the extended
  reals is the identity; the second region therefore reads the padded projection exactly as the first region left it,
  and W_C as launched.
-/
import proofs.«415329_j43748536877633_3_alg».proof.Proof.Gen.KernelIdeal.Frame
import proofs.«415329_j43748536877633_3_alg».proof.Proof.Spec
import Idealize.ShloMosaic.Lib.StableHlo.Run
import Idealize.ShloMosaic.Lib.IdealHost
import Idealize.ShloMosaic.Lib.Pipeline.Value

set_option maxRecDepth 16384

noncomputable section

namespace Cert.KernelIdeal.HostRead

open Cert.KernelIdeal Cert.KernelIdeal.Gen Cert.TokenMix Idealize.ShloMosaic Idealize.ShloMosaic.TcCoe Idealize.ShloMosaic.Tactic
open Idealize.ShloMosaic.ValueIdx
open Idealize.SL Idealize.SL.Sem Idealize.ShloMosaic.StableHlo

/-! ## W_B with zero rows appended is the specification's padded weight -/

/-- Rows 0..63 of the concatenation read W_B, rows 64..127 the broadcast zero. -/
theorem concat_eq_wpad (w : FVec Ideal S64x512 .f32) :
    concatenate S128x512 0 [⟨S64x512, w⟩,
        ⟨S64x512, broadcastInDim S64x512 ![] bcast_S_S64x512 (constant (F := Ideal) S_ .f32 0x00000000#32)⟩]
      concatenates_S64x512_S64x512_S128x512_d0 = wpad w := by
  funext j
  unfold wpad
  by_cases h : (j 0).val < 64
  · rw [dif_pos h]
    refine concatenate_pair_apply_left (s₁ := S64x512) (s₂ := S64x512) (0 : Fin S128x512.rank) _ _ _ j rfl (ix2 (⟨(j 0).val, h⟩ : Fin 64) (j 1)) fun b => ?_
    match b with
    | ⟨0, _⟩ => rfl
    | ⟨1, _⟩ => rfl
  · rw [dif_neg h]
    have hj : (j 0).val < 128 := (j 0).isLt
    refine (concatenate_pair_apply_right (s₁ := S64x512) (s₂ := S64x512) (0 : Fin S128x512.rank) _ _ _ j rfl rfl
      (ix2 (⟨(j 0).val - 64, by omega⟩ : Fin 64) (j 1)) (fun b hb => ?_) ?_).trans ?_
    · match b with
      | ⟨0, _⟩ => exact absurd rfl hb
      | ⟨1, _⟩ => rfl
    · show (j 0).val - 64 + 64 = (j 0).val
      omega
    · rw [broadcastInDim_apply _ bcast_S_S64x512 _ _ (fun a => a.elim0) (fun a => a.elim0)]
      exact Ideal.ofBits_zero_f32

variable {F : FTy → Type} [FloatOps F]
variable (m : (ℓ : Loc nD τ sig) → Buf (Elt F) ℓ) (ρ : Dev nD → PrngReg)

/-! ## The first region's operands -/

/-- The first region reads x as launched. -/
theorem V1_arg0 (c : Dev nD) : V1 m ρ c main_arg0 = m ((c : Thread nD τ).loc main_arg0) := by
  show StableHlo.after hostOps0 (W0 m ρ c) (Proc.devRef .tc main_arg0) = _
  after_results

/-- The first region reads W_B with 64 rows of the zero word appended. -/
theorem V1_v1 (c : Dev nD) : V1 m ρ c main_v1
    = concatenate S128x512 0 [⟨S64x512, m ((c : Thread nD τ).loc main_arg1)⟩,
        ⟨S64x512, broadcastInDim S64x512 ![] bcast_S_S64x512 (constant (F := F) S_ .f32 0x00000000#32)⟩]
      concatenates_S64x512_S64x512_S128x512_d0 := by
  show StableHlo.after hostOps0 (W0 m ρ c) (Proc.devRef .tc main_v1) = _
  after_results

/-! ## The second region's operands -/

/-- W_C is still as launched when the first region is left. -/
theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- The second region reads W_C converted to the narrow format. -/
theorem V3_v3 (c : Dev nD) : V3 m ρ c main_v3 = truncf .bf16 (m ((c : Thread nD τ).loc main_arg2)) bitsLt_bf16_f32 := by
  show StableHlo.after hostOps1 (W2 m ρ c) (Proc.devRef .tc main_v3) = _
  after_results
  rw [W2_arg2]

/-- The second region reads the padded projection as the first region's write-backs left it. -/
theorem V3_v2 (c : Dev nD) : V3 m ρ c main_v2 = (dat0 (V1 m ρ) c).arrAt 2 cfg0.N := by
  show StableHlo.after hostOps1 (W2 m ρ c) (Proc.devRef .tc main_v2) = _
  after_results
  exact W2_arr m ρ c 2

end Cert.KernelIdeal.HostRead

end
-- ==== Proof.LibDotT.lean ====
/-
  A matrix product against a transposed right operand, read at an entry.

  For dimension numbers that contract axis 1 of BOTH operands, keep axis 0 of both, and have no batch axes
  (l [M, K] against r [N, K], result [M, N]: the product l rᵀ), the operand indices at the result entry (p, q) and
  contraction position k are (p, k) and (q, k). So, at the ideal values, a `tpu.matmul` into the zero accumulator is
  the sum  ∑ k, l (p, k) * r (q, k)  over the extended reals. Stated for ANY record with those six lists, at any
  extents and element formats.
-/
import Idealize.ShloMosaic.Lib.ValueIdx
import Idealize.ShloMosaic.PureOps.Ideal.Laws

noncomputable section

namespace Idealize.ShloMosaic.DotT

open Idealize.ShloMosaic Idealize.ShloMosaic.ValueIdx

variable {M K N : Nat} (d : DotDims ⟨2, ![M, K]⟩ ⟨2, ![N, K]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the result's column. -/
theorem rhs_row (hln : d.lhsNonContracting = [0]) (hrn : d.rhsNonContracting = [0]) (hlb : d.lhsBatch = [])
    (hrb : d.rhsBatch = []) (j : (⟨2, ![M, N]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- The right operand's column is the contraction position. -/
theorem rhs_col (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

/-- A `tpu.matmul` of such a record into the zero accumulator, at the ideal values and at entry (p, q): the sum over
    the contraction positions of the products of the left operand's row p and the right operand's row q. -/
theorem matmul_zero_apply {φ₁ φ₂ : FTy}
    (hlc : d.lhsContracting = [1]) (hrc : d.rhsContracting = [1]) (hln : d.lhsNonContracting = [0])
    (hrn : d.rhsNonContracting = [0]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![N, K]⟩ φ₂)
    (p : Fin M) (q : Fin N) :
    FloatOps.matmul d prec l r (constant (F := Ideal) ⟨2, ![M, N]⟩ .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 q k := funext fun a => Fin.ext (by
    match a with
    | ⟨0, _⟩ => exact rhs_row d hln hrn hlb hrb _ _
    | ⟨1, _⟩ => exact (rhs_col d hrc _ _).trans hk)
  rw [el, er]

end Idealize.ShloMosaic.DotT

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.Pay0.lean ====
import proofs.«415329_j43748536877633_3_alg».proof.Proof.Gen.KernelIdeal.Skeleton
import proofs.«415329_j43748536877633_3_alg».proof.Proof.Spec
import proofs.«415329_j43748536877633_3_alg».proof.Proof.LibDotT
import proofs.«415329_j43748536877633_3_alg».proof.Proof.LibPlainDot
import proofs.«415329_j43748536877633_3_alg».proof.Proof.LibRowRead
import proofs.«415329_j43748536877633_3_alg».proof.Proof.LibColumn
import Idealize.ShloMosaic.Lib.Pipeline.Value
import Idealize.ShloMosaic.Lib.ValueLayout

noncomputable section

namespace Cert.KernelIdeal.Pay

open Cert.KernelIdeal Cert.KernelIdeal.Gen Cert.TokenMix Idealize.ShloMosaic Idealize.ShloMosaic.ValueIdx

/-- A column number below 128, as a 32-bit word, is the word 64 exactly when it is 64. -/
theorem word_eq_64 (q : Fin 128) : BitVec.ofNat 32 q.val = 64#32 ↔ q.val = 64 := by
  constructor
  · intro h
    have h' := congrArg BitVec.toNat h
    simp only [BitVec.toNat_ofNat] at h'
    have := q.isLt
    omega
  · intro h; rw [h]

/-- Comparing two words for equality gives the bit 1 exactly when they are equal. -/
theorem cmpi_eq_one_iff {a b : BitVec 32} : IntOp.cmpi .eq a b = 1#1 ↔ a = b := by
  unfold IntOp.cmpi
  by_cases h : a = b
  · simp [h]
  · have hb : (a == b) = false := by simpa using h
    simp [h, hb]

/-- The indicator of column 64, as the kernel spells it: the column number compared with 64 selects the word 1.0 or 0.0. -/
theorem hot_read (p : Fin 2048) (q : Fin 128) :
    select (cmpi .eq (iota .tc S2048x128 32 [1] iota_S2048x128_d1_w32) (broadcast S2048x128 64#32))
        (broadcast S2048x128 (Scalar.ofBits (F := Ideal) .f32 0x3F800000#32))
        (broadcast S2048x128 (Scalar.ofBits (F := Ideal) .f32 0x00000000#32)) (ix2 p q) = hot q := by
  rw [select_apply]
  show Scalar.select (IntOp.cmpi .eq (iota .tc S2048x128 32 [1] iota_S2048x128_d1_w32 (ix2 p q)) 64#32)
      (Ideal.ofBits .f32 0x3F800000#32) (Ideal.ofBits .f32 0x00000000#32) = hot q
  rw [iota_single_apply]
  show Scalar.select (IntOp.cmpi .eq (BitVec.ofNat 32 q.val) 64#32) _ _ = hot q
  unfold hot
  by_cases hq : q.val = 64
  · rw [if_pos hq, cmpi_eq_one_iff.mpr ((word_eq_64 q).mpr hq), select_one, Cert.RowRead.word_one]
  · rw [if_neg hq, eq_zero_of_ne_one (fun h => hq ((word_eq_64 q).mp (cmpi_eq_one_iff.mp h))), select_zero,
      Cert.RowRead.word_zero]

/-- The first kernel's stored block at (0, p, q): row p of the token block against padded weight row q, plus the constant column. -/
theorem pay0_apply (v0 : Vec Ideal S1x2048x512 .f32) (v3 : Vec Ideal S128x512 .f32) (p : Fin 2048) (q : Fin 128) :
    k0_pay1 (F := Ideal) v0 v3 (ix3 (0 : Fin 1) p q)
      = padRow (fun d => v0 (ix3 (0 : Fin 1) p d)) (fun r d => v3 (ix2 r d)) q := by
  unfold k0_pay1
  refine (shapeCast_ab_1ab_apply _ shapeCasts_S2048x128_S1x2048x128 0 p q).trans ?_
  refine (congrArg₂ (· + ·)
    (DotT.matmul_zero_apply dot_S2048x512_S128x512_S2048x128_1_1_0_0_n_n rfl rfl rfl rfl rfl rfl rfl rfl none _ _ p q)
    (hot_read p q)).trans ?_
  unfold padRow
  congr 1
  refine Finset.sum_congr rfl fun d _ => ?_
  rw [truncf_apply, truncf_apply, shapeCast_1ab_ab_apply, shapeCast_self]

end Cert.KernelIdeal.Pay

end
-- ==== Proof.Piece1.lean ====
/-
  What the second kernel's body leaves in its output buffer, as one pure term.

  The body loads 512 query rows of the batch's padded projection (at the row offset the grid point names), the whole
  padded projection of the batch, and the whole of W_C, and stores one value over its whole output block. So the
  buffer after the body IS that value: the body's arithmetic applied to the three loads, of which the two whole loads
  read the blocks themselves.
-/
import proofs.«415329_j43748536877633_3_alg».proof.Proof.Gen.KernelIdeal.Frame
import Idealize.ShloMosaic.Lib.Pipeline.Value

set_option maxRecDepth 16384

noncomputable section

namespace Cert.KernelIdeal.Piece

open Cert.KernelIdeal Cert.KernelIdeal.Gen Idealize.ShloMosaic Idealize.ShloMosaic.TcCoe Idealize.ShloMosaic.Tactic
open Idealize.SL Idealize.SL.Sem

variable {F : FTy → Type} [FloatOps F]

theorem zero3 : (![0, 0, 0] : Fin 3 → Nat) = fun _ => 0 :=
  funext fun a => by match a with | ⟨0, _⟩ => rfl | ⟨1, _⟩ => rfl | ⟨2, _⟩ => rfl
theorem zero2 : (![0, 0] : Fin 2 → Nat) = fun _ => 0 :=
  funext fun a => by match a with | ⟨0, _⟩ => rfl | ⟨1, _⟩ => rfl

/-- The rectangle of the 512 query rows the body loads at grid point `i`. -/
abbrev qrect (i : grid1.Coords) : Rect S1x4096x128 :=
  Rect.unit (s := S1x4096x128) (k1_off1 i) S1x512x128.size (k1_off1_inb i)

set_option maxHeartbeats 1000000 in
/-- The output buffer after the body: the body's value of the query rows, the key block and W_C. -/
theorem out1_eq (c : Dev nD) (i : grid1.Coords) (arg2 : Memref sig .tc .vmem S1x4096x128 .bf16) (harg2 : arg2.IsWhole) (arg3 : Memref sig .tc .vmem S512x64 .bf16) (harg3 : arg3.IsWhole) (arg4 : Memref sig .tc .vmem S1x512x512 .f32) (harg4 : arg4.IsWhole)
    (x0 : Vec F S1x4096x128 .bf16) (x1 : Vec F S512x64 .bf16) :
    out1_A_2 c i arg2 harg2 arg3 harg3 arg4 harg4 x0 x1 = k1_pay1 (View.ld x0 (qrect i)) x0 x1 := by
  unfold out1_A_2
  rw [View.read_writes_eq_canon _ _ _ (cover1_A_2 c i arg2 harg2 arg3 harg3 arg4 harg4 x0 x1)]
  unfold kernelRun1_A
  dsimp only
  rw [View.canon_unit_zero (S := S1x512x512) zero3]
  simp only [View.readAt_eq_ld, harg2.read_unread, harg3.read_unread, View.ld_unit_zero (S := S1x4096x128) zero3,
    View.ld_unit_zero (S := S512x64) zero2]

end Cert.KernelIdeal.Piece

end
-- ==== Proof.Blocks0.lean ====
/-
  The padded projection array after the first region.

  The first region's grid is 4 batches by 2 halves of the 4096 tokens. At point (b, h) it reads rows 2048 h … of batch b
  of x and the whole padded weight, and writes back rows 2048 h … of batch b of the padded projection. Entry (p, q) of
  the block it writes is token 2048 h + p of batch b against padded weight row q, plus the constant column: the
  specification's `bpad` at (b, 2048 h + p, q). The eight blocks tile the array, so the array ends holding `bpad`.
-/
import proofs.«415329_j43748536877633_3_alg».proof.Proof.Gen.KernelIdeal.Frame
import proofs.«415329_j43748536877633_3_alg».proof.Proof.Spec
import proofs.«415329_j43748536877633_3_alg».proof.Proof.Pay0
import proofs.«415329_j43748536877633_3_alg».proof.Proof.Piece1
import Idealize.ShloMosaic.Lib.Pipeline.Value

set_option maxRecDepth 16384

noncomputable section

namespace Cert.KernelIdeal.Blocks0

open Cert.KernelIdeal Cert.KernelIdeal.Gen Cert.TokenMix Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the token window moves with the output window on the batch and row-block axes, the
    weight window stays put, and no window moves along the last axis. -/
theorem idx0 : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

/-- Every (batch, half) is some point's output block. -/
theorem onto0 : ∀ (q0 : Fin 4) (q1 : Fin 2), ∃ t : Fin cfg0.N, win0_2.index t = ![q0.val, q1.val, 0] :=
  (by decide +kernel : ∀ (q0 : Fin 4) (q1 : Fin 2), ∃ t : Fin grid0.N, win0_2.index t = ![q0.val, q1.val, 0])

/-- One entry of the stored block is one entry of `bpad`, when the token rows, the weights and the column agree. -/
theorem entry0 (X : SX.Idx → EReal) (W : SWp.Idx → EReal)
    (x0 : Vec Ideal S1x2048x512 .f32) (x1 : Vec Ideal S128x512 .f32) (j : S1x2048x128.Idx) (i : SB.Idx)
    (hx : ∀ d : Fin 512, x0 (ix3 (0 : Fin 1) (j 1) d) = X (ix3 (i 0) (i 1) d))
    (hw : ∀ (r : Fin 128) (d : Fin 512), x1 (ix2 r d) = W (ix2 r d))
    (hq : (j 2).val = (i 2).val) :
    k0_pay1 (F := Ideal) x0 x1 j = bpad X W i := by
  have hlt : (j 0).val < 1 := (j 0).isLt
  have h0 : @Eq (Fin 1) (j 0) (0 : Fin 1) := Fin.ext (show (j 0).val = 0 by omega)
  have hj : j = ix3 (0 : Fin 1) (j 1) (j 2) := (eq_ix3 j).trans (congrArg (fun a => ix3 a (j 1) (j 2)) h0)
  refine (congrArg (k0_pay1 (F := Ideal) x0 x1) hj).trans ?_
  refine (Pay.pay0_apply x0 x1 (j 1) (j 2)).trans ?_
  show padRow _ _ (j 2) = padRow (fun d => X (ix3 (i 0) (i 1) d)) (fun r d => W (ix2 r d)) (i 2)
  have e2 : (j 2 : Fin 128) = i 2 := Fin.ext hq
  rw [show (fun d => x0 (ix3 (0 : Fin 1) (j 1) d)) = (fun d => X (ix3 (i 0) (i 1) d)) from funext hx,
    show (fun r d => x1 (ix2 r d)) = (fun r d => W (ix2 r d)) from funext fun r => funext (hw r), e2]

/-- What point `t` writes back is block `t` of `bpad` of the arrays the region finds. -/
theorem flushed0 (c : Dev nD) (t : Fin cfg0.N) :
    (dat0 V c).flushed 2 t = ((cfg0.win 2).blk t).view.read (Elt Ideal) (bpad (V c main_arg0) (V c main_v1)) := by
  show (cfg0.win 2).cut (grid0.coords t) ((dat0 V c).after 2 t) = _
  rw [after0_2]
  unfold out0_2
  rw [View.canon_unit_zero (S := S1x2048x128) Piece.zero3]
  simp only [View.ld_unit_zero (S := S1x2048x512) Piece.zero3, View.ld_unit_zero (S := S128x512) Piece.zero2]
  obtain ⟨e0, e1, e2, e3, e4, e5⟩ := idx0 t
  funext j
  have hj0 : (j 0).val < 1 := (j 0).isLt
  refine entry0 (V c main_arg0) (V c main_v1) (iblk0 V c 0 t) (iblk0 V c 1 t) j (((cfg0.win 2).blk t).view.emb j)
    (fun d => ?_) (fun r d => ?_) ?_
  · unfold iblk0
    rw [View.read_apply]
    show V c main_arg0 (((cfg0.win 0).blk t).view.emb (ix3 (0 : Fin 1) (j 1) d)) = _
    refine congrArg (V c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 2048 + 1 * (j 1).val = win0_2.index t (1 : Fin 3) * 2048 + 1 * (j 1).val; omega
    | ⟨2, _⟩ => show win0_0.index t (2 : Fin 3) * 512 + 1 * d.val = d.val; omega
  · unfold iblk0
    rw [View.read_apply]
    show V c main_v1 (((cfg0.win 1).blk t).view.emb (ix2 r d)) = _
    refine congrArg (V c main_v1) (funext fun a => Fin.ext ?_)
    match a with
    | ⟨0, _⟩ => show win0_1.index t (0 : Fin 2) * 128 + 1 * r.val = r.val; omega
    | ⟨1, _⟩ => show win0_1.index t (1 : Fin 2) * 512 + 1 * d.val = d.val; omega
  · show (j 2).val = win0_2.index t (2 : Fin 3) * 128 + 1 * (j 2).val
    omega

/-- An index of the array is in point `t`'s block iff each coordinate is in the block's range on its axis. -/
theorem mem_blk0 (t : Fin cfg0.N) (i : SB.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v2).slice (win0_2.rect t)).set ↔ _
  rw [View.set_slice_whole, Rect.mem_set_unit]
  exact Iff.rfl

/-- The eight blocks cover the array: entry (b, n, r) is in the block of point (b, n / 2048). -/
theorem cover0 (i : SB.Idx) : ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 128 := (i 2).isLt
  obtain ⟨t, ht⟩ := onto0 ⟨(i 0).val, h0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- The padded projection array after the first region is `bpad` of the arrays the region found. -/
theorem final0 (c : Dev nD) : (dat0 V c).arrAt 2 cfg0.N = bpad (V c main_arg0) (V c main_v1) :=
  (dat0 V c).arrAt_eq_of_cover 2 (bpad (V c main_arg0) (V c main_v1)) (fun t _ => flushed0 V c t) cover0

end Cert.KernelIdeal.Blocks0

end
-- ==== Proof.Pay1.lean ====
import proofs.«415329_j43748536877633_3_alg».proof.Proof.Gen.KernelIdeal.Skeleton
import proofs.«415329_j43748536877633_3_alg».proof.Proof.Spec
import proofs.«415329_j43748536877633_3_alg».proof.Proof.LibDotT
import proofs.«415329_j43748536877633_3_alg».proof.Proof.LibPlainDot
import proofs.«415329_j43748536877633_3_alg».proof.Proof.LibRowRead
import proofs.«415329_j43748536877633_3_alg».proof.Proof.LibColumn
import Idealize.ShloMosaic.Lib.Pipeline.Value
import Idealize.ShloMosaic.Lib.ValueLayout

noncomputable section

namespace Cert.KernelIdeal.Pay

open Cert.KernelIdeal Cert.KernelIdeal.Gen Cert.TokenMix Idealize.ShloMosaic Idealize.ShloMosaic.ValueIdx

/-- The scores: query row p against key row m over the 128 padded columns. -/
theorem score_read (v3 : FVec Ideal S1x512x128 .bf16) (v5 : FVec Ideal S1x4096x128 .bf16) (p : Fin 512) (m : Fin 4096) :
    matmul dot_S512x128_S4096x128_S512x4096_1_1_0_0_n_n none (shapeCast S512x128 v3 shapeCasts_S1x512x128_S512x128)
        (shapeCast S4096x128 v5 shapeCasts_S1x4096x128_S4096x128) (constant (F := Ideal) S512x4096 .f32 0x00000000#32) (ix2 p m)
      = ∑ r : Fin 128, v3 (ix3 (0 : Fin 1) p r) * v5 (ix3 (0 : Fin 1) m r) := by
  refine (DotT.matmul_zero_apply dot_S512x128_S4096x128_S512x4096_1_1_0_0_n_n rfl rfl rfl rfl rfl rfl rfl rfl none _ _ p m).trans ?_
  refine Finset.sum_congr rfl fun r _ => ?_
  rw [shapeCast_1ab_ab_apply, shapeCast_1ab_ab_apply]

/-- The unnormalised weights: a row of scores minus the row's maximum, exponentiated entry by entry. -/
theorem weight_read (v7 : FVec Ideal S512x4096 .f32) (p : Fin 512) (s : Fin 4096 → EReal) (hs : ∀ m, v7 (ix2 p m) = s m)
    (m : Fin 4096) :
    truncf .bf16 (exp (subf v7 (broadcastTo S512x4096
        (shapeCast S512x1 (multiReduction (F := Ideal) .maximumf [1] S512 v7 0xFF800000#32 reduces_S512x4096_S512 (.inl rfl) rfl)
          shapeCasts_S512_S512x1) broadcasts_S512x1_S512x4096))) bitsLt_bf16_f32 (ix2 p m)
      = Ideal.exp (s m - (Finset.univ : Finset (Fin 4096)).fold max ⊥ s) := by
  rw [truncf_apply, Cert.RowRead.exp_apply, subf_apply, Column.keepdims_apply, Cert.RowRead.rowMax_f32, hs]
  exact congrArg (fun f => Ideal.exp (s m - (Finset.univ : Finset (Fin 4096)).fold max ⊥ f)) (funext hs)

/-- The weights against the key rows, column c. -/
theorem acc_read (v13 : FVec Ideal S512x4096 .bf16) (v5 : FVec Ideal S1x4096x128 .bf16) (p : Fin 512) (w : Fin 4096 → EReal)
    (hw : ∀ m, v13 (ix2 p m) = w m) (c : Fin 128) :
    matmul dot_S512x4096_S4096x128_S512x128_1_0_0_1_n_n none v13 (shapeCast S4096x128 v5 shapeCasts_S1x4096x128_S4096x128)
        (constant (F := Ideal) S512x128 .f32 0x00000000#32) (ix2 p c)
      = ∑ m : Fin 4096, w m * v5 (ix3 (0 : Fin 1) m c) := by
  refine (PlainDot.matmul_zero_apply dot_S512x4096_S4096x128_S512x128_1_0_0_1_n_n rfl rfl rfl rfl rfl rfl rfl rfl none _ _ p c).trans ?_
  refine Finset.sum_congr rfl fun m _ => ?_
  rw [hw, shapeCast_1ab_ab_apply]

/-- The mixture: columns 0..63 of the accumulated row, each divided by its column 64. -/
theorem mixed_read (v14 : FVec Ideal S512x128 .f32) (p : Fin 512) (a : Fin 128 → EReal) (ha : ∀ c, v14 (ix2 p c) = a c)
    (r : Fin 64) :
    truncf .bf16 (divf (extractStridedSlice S512x64 ![0, 0] v14 slices_S512x128_o0_0_S512x64)
        (broadcastTo S512x64 (extractStridedSlice S512x1 ![0, 64] v14 slices_S512x128_o0_64_S512x1) broadcasts_S512x1_S512x64))
        bitsLt_bf16_f32 (ix2 p r)
      = Ideal.div (a ⟨r.val, by omega⟩) (a ⟨64, by decide⟩) := by
  rw [truncf_apply, divf_apply, Column.broadcastTo_a1_ab_apply,
    slice2_axis1_apply 0 v14 slices_S512x128_o0_0_S512x64 p r ⟨r.val, by omega⟩ (Nat.zero_add _).symm,
    slice2_axis1_apply 64 v14 slices_S512x128_o0_64_S512x1 p (0 : Fin 1) ⟨64, by decide⟩ rfl, ha, ha]

/-- The result entry: the mixture of row p against row q of the second weight array, stored under a leading unit axis. -/
theorem out_read (v19 : FVec Ideal S512x64 .bf16) (v20 : FVec Ideal S512x64 .bf16) (p q : Fin 512) (x : Fin 64 → EReal)
    (hx : ∀ r, v19 (ix2 p r) = x r) :
    shapeCast S1x512x512 (matmul dot_S512x64_S512x64_S512x512_1_1_0_0_n_n none v19 (shapeCast S512x64 v20 shapeCasts_S512x64_S512x64)
        (constant (F := Ideal) S512x512 .f32 0x00000000#32)) shapeCasts_S512x512_S1x512x512 (ix3 (0 : Fin 1) p q)
      = ∑ r : Fin 64, x r * v20 (ix2 q r) := by
  refine (shapeCast_ab_1ab_apply _ shapeCasts_S512x512_S1x512x512 0 p q).trans ?_
  refine (DotT.matmul_zero_apply dot_S512x64_S512x64_S512x512_1_1_0_0_n_n rfl rfl rfl rfl rfl rfl rfl rfl none _ _ p q).trans ?_
  refine Finset.sum_congr rfl fun r _ => ?_
  rw [hx, shapeCast_self]

/-- The second kernel's stored block at (0, p, q): query row p against the batch's key rows, mixed, against row q of W_C. -/
theorem pay1_apply (v3 : Vec Ideal S1x512x128 .bf16) (v5 : Vec Ideal S1x4096x128 .bf16) (v20 : Vec Ideal S512x64 .bf16)
    (p q : Fin 512) :
    k1_pay1 (F := Ideal) v3 v5 v20 (ix3 (0 : Fin 1) p q)
      = rowOut (fun r => v3 (ix3 (0 : Fin 1) p r)) (fun m r => v5 (ix3 (0 : Fin 1) m r)) (fun r => v20 (ix2 q r)) := by
  unfold k1_pay1
  refine out_read _ v20 p q (rmixed (fun r => v3 (ix3 (0 : Fin 1) p r)) (fun m r => v5 (ix3 (0 : Fin 1) m r))) ?_
  refine mixed_read _ p (racc (fun r => v3 (ix3 (0 : Fin 1) p r)) (fun m r => v5 (ix3 (0 : Fin 1) m r))) ?_
  refine acc_read _ v5 p (rweight (fun r => v3 (ix3 (0 : Fin 1) p r)) (fun m r => v5 (ix3 (0 : Fin 1) m r))) ?_
  refine weight_read _ p (rscore (fun r => v3 (ix3 (0 : Fin 1) p r)) (fun m r => v5 (ix3 (0 : Fin 1) m r))) ?_
  exact score_read v3 v5 p

end Cert.KernelIdeal.Pay

end
-- ==== Proof.Blocks1.lean ====
/-
  The result array after the second region.

  The second region's grid is 4 batches by 8 blocks of 512 query tokens. At point (b, k) it holds the whole padded
  projection of batch b and the whole of W_C, reads query rows 512 k … of the batch, and writes back rows 512 k … of
  batch b of the result. Entry (p, d) of the block it writes is query token 512 k + p against the batch's key rows,
  mixed, against row d of W_C: the specification's `kernOut` at (b, 512 k + p, d). The 32 blocks tile the array.
-/
import proofs.«415329_j43748536877633_3_alg».proof.Proof.Gen.KernelIdeal.Frame
import proofs.«415329_j43748536877633_3_alg».proof.Proof.Spec
import proofs.«415329_j43748536877633_3_alg».proof.Proof.Pay1
import proofs.«415329_j43748536877633_3_alg».proof.Proof.Piece1
import Idealize.ShloMosaic.Lib.Pipeline.Value

set_option maxRecDepth 16384

noncomputable section

namespace Cert.KernelIdeal.Blocks1

open Cert.KernelIdeal Cert.KernelIdeal.Gen Cert.TokenMix Idealize.ShloMosaic Idealize.ShloMosaic.TcCoe
open Idealize.ShloMosaic.ValueIdx Idealize.SL.Sem
open Idealize.ShloMosaic.Pipeline (Dat)

variable (V : (c : Dev nD) → (b : Ref sig .tc) → Buf (Elt Ideal) ((c : Thread nD τ).loc b))

/-- The index maps over the grid: the key window follows the output window's batch and covers all its tokens, W_C stays
    put, and the query rows start at 512 times the output window's row-block index. -/
theorem idx1 : ∀ t : Fin cfg1.N,
    win1_0.index t (0 : Fin 3) = win1_2.index t (0 : Fin 3) ∧ win1_0.index t (1 : Fin 3) = 0 ∧ win1_0.index t (2 : Fin 3) = 0
    ∧ win1_1.index t (0 : Fin 2) = 0 ∧ win1_1.index t (1 : Fin 2) = 0 ∧ win1_2.index t (2 : Fin 3) = 0
    ∧ k1_off1 (grid1.coords t) (0 : Fin 3) = 0 ∧ k1_off1 (grid1.coords t) (1 : Fin 3) = win1_2.index t (1 : Fin 3) * 512
    ∧ k1_off1 (grid1.coords t) (2 : Fin 3) = 0 :=
  (by decide +kernel : ∀ t : Fin grid1.N, _)

/-- Every (batch, query block) is some point's output block. -/
theorem onto1 : ∀ (q0 : Fin 4) (q1 : Fin 8), ∃ t : Fin cfg1.N, win1_2.index t = ![q0.val, q1.val, 0] :=
  (by decide +kernel : ∀ (q0 : Fin 4) (q1 : Fin 8), ∃ t : Fin grid1.N, win1_2.index t = ![q0.val, q1.val, 0])

/-- One entry of the stored block is one entry of `kernOut`, when the query row, the key rows and the W_C row agree. -/
theorem entry1 (B : SB.Idx → EReal) (Wc : SWc.Idx → EReal)
    (xq : Vec Ideal S1x512x128 .bf16) (xk : Vec Ideal S1x4096x128 .bf16) (xw : Vec Ideal S512x64 .bf16)
    (j : S1x512x512.Idx) (i : SX.Idx)
    (hq : ∀ r : Fin 128, xq (ix3 (0 : Fin 1) (j 1) r) = B (ix3 (i 0) (i 1) r))
    (hk : ∀ (m : Fin 4096) (r : Fin 128), xk (ix3 (0 : Fin 1) m r) = B (ix3 (i 0) m r))
    (hw : ∀ r : Fin 64, xw (ix2 (j 2) r) = Wc (ix2 (i 2) r)) :
    k1_pay1 (F := Ideal) xq xk xw j = kernOut B Wc i := by
  have hlt : (j 0).val < 1 := (j 0).isLt
  have h0 : @Eq (Fin 1) (j 0) (0 : Fin 1) := Fin.ext (show (j 0).val = 0 by omega)
  have hj : j = ix3 (0 : Fin 1) (j 1) (j 2) := (eq_ix3 j).trans (congrArg (fun a => ix3 a (j 1) (j 2)) h0)
  refine (congrArg (k1_pay1 (F := Ideal) xq xk xw) hj).trans ?_
  refine (Pay.pay1_apply xq xk xw (j 1) (j 2)).trans ?_
  show rowOut _ _ _ = rowOut (fun r => B (ix3 (i 0) (i 1) r)) (fun m r => B (ix3 (i 0) m r)) (fun r => Wc (ix2 (i 2) r))
  rw [show (fun r => xq (ix3 (0 : Fin 1) (j 1) r)) = (fun r => B (ix3 (i 0) (i 1) r)) from funext hq,
    show (fun m r => xk (ix3 (0 : Fin 1) m r)) = (fun m r => B (ix3 (i 0) m r)) from funext fun m => funext (hk m),
    show (fun r => xw (ix2 (j 2) r)) = (fun r => Wc (ix2 (i 2) r)) from funext hw]

/-- What point `t` writes back is block `t` of `kernOut` of the arrays the region finds. -/
theorem flushed1 (c : Dev nD) (t : Fin cfg1.N) :
    (dat1 V c).flushed 2 t = ((cfg1.win 2).blk t).view.read (Elt Ideal) (kernOut (V c main_v2) (V c main_v3)) := by
  show (cfg1.win 2).cut (grid1.coords t) ((dat1 V c).after 2 t) = _
  rw [after1_2]
  unfold outsAt1
  rw [Piece.out1_eq]
  obtain ⟨e0, e1, e2, e3, e4, e5, e6, e7, e8⟩ := idx1 t
  funext j
  have hj0 : (j 0).val < 1 := (j 0).isLt
  have hj1 : (j 1).val < 512 := (j 1).isLt
  refine entry1 (V c main_v2) (V c main_v3) (View.ld (iblk1 V c 0 t) (Piece.qrect (grid1.coords t))) (iblk1 V c 0 t)
    (iblk1 V c 1 t) j (((cfg1.win 2).blk t).view.emb j) (fun r => ?_) (fun m r => ?_) (fun r => ?_)
  · show iblk1 V c 0 t ((Piece.qrect (grid1.coords t)).emb (ix3 (0 : Fin 1) (j 1) r)) = _
    unfold iblk1
    rw [View.read_apply]
    show V c main_v2 (((cfg1.win 0).blk t).view.emb ((Piece.qrect (grid1.coords t)).emb (ix3 (0 : Fin 1) (j 1) r))) = _
    refine congrArg (V c main_v2) (funext fun a => Fin.ext ?_)
    match a with
    | ⟨0, _⟩ => show win1_0.index t (0 : Fin 3) * 1 + 1 * (k1_off1 (grid1.coords t) (0 : Fin 3) + 1 * 0) = win1_2.index t (0 : Fin 3) * 1 + 1 * (j 0).val; omega
    | ⟨1, _⟩ => show win1_0.index t (1 : Fin 3) * 4096 + 1 * (k1_off1 (grid1.coords t) (1 : Fin 3) + 1 * (j 1).val) = win1_2.index t (1 : Fin 3) * 512 + 1 * (j 1).val; omega
    | ⟨2, _⟩ => show win1_0.index t (2 : Fin 3) * 128 + 1 * (k1_off1 (grid1.coords t) (2 : Fin 3) + 1 * r.val) = r.val; omega
  · unfold iblk1
    rw [View.read_apply]
    show V c main_v2 (((cfg1.win 0).blk t).view.emb (ix3 (0 : Fin 1) m r)) = _
    refine congrArg (V c main_v2) (funext fun a => Fin.ext ?_)
    match a with
    | ⟨0, _⟩ => show win1_0.index t (0 : Fin 3) * 1 + 1 * 0 = win1_2.index t (0 : Fin 3) * 1 + 1 * (j 0).val; omega
    | ⟨1, _⟩ => show win1_0.index t (1 : Fin 3) * 4096 + 1 * m.val = m.val; omega
    | ⟨2, _⟩ => show win1_0.index t (2 : Fin 3) * 128 + 1 * r.val = r.val; omega
  · unfold iblk1
    rw [View.read_apply]
    show V c main_v3 (((cfg1.win 1).blk t).view.emb (ix2 (j 2) r)) = _
    refine congrArg (V c main_v3) (funext fun a => Fin.ext ?_)
    match a with
    | ⟨0, _⟩ => show win1_1.index t (0 : Fin 2) * 512 + 1 * (j 2).val = win1_2.index t (2 : Fin 3) * 512 + 1 * (j 2).val; omega
    | ⟨1, _⟩ => show win1_1.index t (1 : Fin 2) * 64 + 1 * r.val = r.val; omega

/-- An index of the array is in point `t`'s block iff each coordinate is in the block's range on its axis. -/
theorem mem_blk1 (t : Fin cfg1.N) (i : SX.Idx) :
    i ∈ ((cfg1.win 2).blk t).view.set ↔ ∀ a : Fin 3, win1_2.index t a * S1x512x512.size a ≤ (i a).val
      ∧ (i a).val < win1_2.index t a * S1x512x512.size a + S1x512x512.size a := by
  show i ∈ ((View.whole main_v4).slice (win1_2.rect t)).set ↔ _
  rw [View.set_slice_whole, Rect.mem_set_unit]
  exact Iff.rfl

/-- The 32 blocks cover the array: entry (b, n, d) is in the block of point (b, n / 512). -/
theorem cover1 (i : SX.Idx) : ∃ t : Fin cfg1.N, (cfg1.win 2).flush t = true ∧ i ∈ ((cfg1.win 2).blk t).view.set := by
  have h0 : (i 0).val < 4 := (i 0).isLt
  have h1 : (i 1).val < 4096 := (i 1).isLt
  have h2 : (i 2).val < 512 := (i 2).isLt
  obtain ⟨t, ht⟩ := onto1 ⟨(i 0).val, h0⟩ ⟨(i 1).val / 512, by omega⟩
  have q0 : win1_2.index t (0 : Fin 3) = (i 0).val := congrFun ht 0
  have q1 : win1_2.index t (1 : Fin 3) = (i 1).val / 512 := congrFun ht 1
  have q2 : win1_2.index t (2 : Fin 3) = 0 := congrFun ht 2
  refine ⟨t, flush1_2 t, ?_⟩
  rw [mem_blk1]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 512 ≤ (i 1).val ∧ (i 1).val < win1_2.index t (1 : Fin 3) * 512 + 512; omega
  | ⟨2, _⟩ => show win1_2.index t (2 : Fin 3) * 512 ≤ (i 2).val ∧ (i 2).val < win1_2.index t (2 : Fin 3) * 512 + 512; omega

/-- The result array after the second region is `kernOut` of the arrays the region found. -/
theorem final1 (c : Dev nD) : (dat1 V c).arrAt 2 cfg1.N = kernOut (V c main_v2) (V c main_v3) :=
  (dat1 V c).arrAt_eq_of_cover 2 (kernOut (V c main_v2) (V c main_v3)) (fun t _ => flushed1 V c t) cover1

end Cert.KernelIdeal.Blocks1

end
-- ==== Proof.KernelValue.lean ====
/-
  The kernel's result, as a function of its arguments.

  The result buffer ends at what the second region's write-backs leave: `kernOut` of the padded projection and W_C as
  that region found them. It found the padded projection as the first region's write-backs left it, `bpad` of x and
  the padded weight as THAT region found them, and W_C converted to the narrow format, which on the extended reals is
  W_C itself. So the result is  kernOut (bpad x (wpad W_B)) W_C  of the launch contents.
-/
import proofs.«415329_j43748536877633_3_alg».proof.Proof.RunValue
import proofs.«415329_j43748536877633_3_alg».proof.Proof.HostRead
import proofs.«415329_j43748536877633_3_alg».proof.Proof.Blocks0
import proofs.«415329_j43748536877633_3_alg».proof.Proof.Blocks1

set_option maxRecDepth 16384

noncomputable section

namespace Cert.KernelIdeal.KernelValue

open Cert.KernelIdeal Cert.KernelIdeal.Gen Cert.TokenMix Idealize.ShloMosaic Idealize.ShloMosaic.TcCoe
open Idealize.SL.Sem

variable (m : (ℓ : Loc nD τ sig) → Buf (Elt Ideal) ℓ) (ρ : Dev nD → PrngReg)

/-- The kernel's result array, from the launch contents of x, W_B and W_C. -/
abbrev result (c : Dev nD) : Buf (Elt Ideal) ((c.tc : Thread nD τ).loc main_v4) :=
  kernOut (bpad (m ((c.tc : Thread nD τ).loc main_arg0)) (wpad (m ((c.tc : Thread nD τ).loc main_arg1))))
    (m ((c.tc : Thread nD τ).loc main_arg2))

/-- The conversion to the narrow format changes no extended real. -/
theorem truncf_id (w : FVec Ideal S512x64 .f32) : truncf .bf16 w bitsLt_bf16_f32 = w := rfl

/-- The result buffer's contents at the last boundary are `result`. -/
theorem result_eq (c : Dev nD) : W4 m ρ c (Proc.devRef .tc main_v4) = result m c := by
  refine (W4_arr m ρ c 2).trans ?_
  rw [Blocks1.final1 (V3 m ρ) c, HostRead.V3_v2, HostRead.V3_v3, truncf_id, Blocks0.final0 (V1 m ρ) c, HostRead.V1_arg0,
    HostRead.V1_v1, HostRead.concat_eq_wpad]

/-- The run, read: the result buffer at `result`, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (GenRun.run_main m ρ)

end Cert.KernelIdeal.KernelValue

end
-- ==== Proof.RefValue.lean ====
import proofs.«415329_j43748536877633_3_alg».proof.Proof.Gen.ReferenceIdeal.Read
import proofs.«415329_j43748536877633_3_alg».proof.Proof.Spec
import proofs.«415329_j43748536877633_3_alg».proof.Proof.LibRowRead

noncomputable section

namespace Cert.ReferenceIdeal.RefValue

open Cert.ReferenceIdeal Idealize.ShloMosaic Idealize.ShloMosaic.ValueIdx

section Stages

variable (x : (⟨S4x4096x512, .f32⟩ : BufTy).Contents (Elt Ideal)) (wb : (⟨S64x512, .f32⟩ : BufTy).Contents (Elt Ideal))

/-- The first product, at (b, n, r): token n's features against row r of W_B. -/
theorem v0_at (b : Fin 4) (n : Fin 4096) (r : Fin 64) :
    Read.val_main_v0 (F := Ideal) x wb (ix3 b n r) = Cert.TokenMix.proj x wb b n r := by
  rw [Read.val_main_v0_apply]
  unfold Cert.TokenMix.proj
  refine Finset.sum_congr rfl fun k _ => ?_
  have el : Read.lidx_main_v0 (ix3 b n r) k = ix3 b n k :=
    funext fun a => Fin.ext (by match a with | ⟨0, _⟩ => rfl | ⟨1, _⟩ => rfl | ⟨2, _⟩ => rfl)
  have er : Read.ridx_main_v0 (ix3 b n r) k = ix2 r k :=
    funext fun a => Fin.ext (by match a with | ⟨0, _⟩ => rfl | ⟨1, _⟩ => rfl)
  rw [el, er]

/-- The second product, at (b, n, m): the projections of tokens n and m against each other. -/
theorem v1_at (b : Fin 4) (n m : Fin 4096) :
    Read.val_main_v1 (F := Ideal) x wb (ix3 b n m) = Cert.TokenMix.score x wb b n m := by
  rw [Read.val_main_v1_apply]
  unfold Cert.TokenMix.score
  refine Finset.sum_congr rfl fun k _ => ?_
  have el : Read.lidx_main_v1 (ix3 b n m) k = ix3 b n k :=
    funext fun a => Fin.ext (by match a with | ⟨0, _⟩ => rfl | ⟨1, _⟩ => rfl | ⟨2, _⟩ => rfl)
  have er : Read.ridx_main_v1 (ix3 b n m) k = ix3 b m k :=
    funext fun a => Fin.ext (by match a with | ⟨0, _⟩ => rfl | ⟨1, _⟩ => rfl | ⟨2, _⟩ => rfl)
  rw [el, er, v0_at, v0_at]

/-- The reduced index (b, n) with the coordinate k put back on the last axis is (b, n, k). -/
theorem lift_last (h : S4x4096x4096.Reduces [2] S4x4096) (b : Fin 4) (n : Fin 4096) (k : Fin (S4x4096x4096.size 2)) :
    h.lift (ix2 b n) k = ix3 b n (⟨k.val, k.isLt⟩ : Fin 4096) := by
  funext c; apply Fin.ext
  fin_cases c <;> rfl

/-- The maximum over the last axis, at (b, n): the fold of max from the bottom element over the row's scores. -/
theorem v2_at (b : Fin 4) (n : Fin 4096) :
    Read.val_main_v2 (F := Ideal) x wb (ix2 b n) = Cert.TokenMix.rowMax x wb b n := by
  unfold Read.val_main_v2
  generalize hy : Read.val_main_v1 (F := Ideal) x wb = y
  have h : S4x4096x4096.Reduces [2] S4x4096 := by decide
  refine (Host.reduce_eq_fold_single (α := Ideal .f32) (s := S4x4096x4096) (t := S4x4096) FloatOps.maximumf y
    (Read.val_main_cst (F := Ideal)) Gen.reducesTo_S4x4096x4096_S4x4096_d2 h Gen.h_S_ (ix2 b n)).trans ?_
  have hf : (y ∘ h.lift (ix2 b n)) = fun k : Fin 4096 => Cert.TokenMix.score x wb b n k := funext fun k => by
    show y (h.lift (ix2 b n) k) = _
    rw [lift_last h b n k, ← hy]
    exact v1_at x wb b n _
  have hi : Read.val_main_cst (F := Ideal) (Shape.Idx.first Gen.h_S_) = (⊥ : EReal) := by
    rw [Read.val_main_cst_apply]; exact Cert.RowRead.word_neg_inf
  unfold Cert.TokenMix.rowMax
  rw [hi]
  exact congrArg (fun f => Finset.fold max (⊥ : EReal) f (Finset.univ : Finset (Fin 4096))) hf

/-- The maximum with the broadcast word of -∞ changes nothing. -/
theorem v4_at (b : Fin 4) (n : Fin 4096) :
    Read.val_main_v4 (F := Ideal) x wb (ix2 b n) = Cert.TokenMix.rowMax x wb b n := by
  rw [Read.val_main_v4_apply, Read.val_main_v3_apply, Read.val_main_cst_0_apply, v2_at]
  show max (Ideal.ofBits .f32 0xFF800000#32) _ = _
  rw [Cert.RowRead.word_neg_inf]
  exact max_bot_left _

/-- The row maximum with a unit axis appended. -/
theorem v5_at (b : Fin 4) (n : Fin 4096) (z : Fin 1) :
    Read.val_main_v5 (F := Ideal) x wb (ix3 b n z) = Cert.TokenMix.rowMax x wb b n := by
  rw [Read.val_main_v5_apply]
  have e : Read.idx_main_v5 (ix3 b n z) = ix2 b n :=
    funext fun a => Fin.ext (by match a with | ⟨0, _⟩ => rfl | ⟨1, _⟩ => rfl)
  rw [e, v4_at]

/-- The row maximum spread along the row. -/
theorem v6_at (b : Fin 4) (n m : Fin 4096) :
    Read.val_main_v6 (F := Ideal) x wb (ix3 b n m) = Cert.TokenMix.rowMax x wb b n := by
  rw [Read.val_main_v6_apply]
  have e : Read.idx_main_v6 (ix3 b n m) = ix3 b n (0 : Fin 1) :=
    funext fun a => Fin.ext (by match a with | ⟨0, _⟩ => rfl | ⟨1, _⟩ => rfl | ⟨2, _⟩ => rfl)
  rw [e, v5_at]

/-- The exponential of a score less its row's maximum: the unnormalised weight. -/
theorem v8_at (b : Fin 4) (n m : Fin 4096) :
    Read.val_main_v8 (F := Ideal) x wb (ix3 b n m) = Cert.TokenMix.weight x wb b n m := by
  rw [Read.val_main_v8_apply, Read.val_main_v7_apply, v1_at, v6_at, Ideal.subf_def, Ideal.hostUnary_exp_def]
  rfl

/-- The sum over the last axis from the zero word, at (b, n): the row's denominator. -/
theorem v9_at (b : Fin 4) (n : Fin 4096) :
    Read.val_main_v9 (F := Ideal) x wb (ix2 b n) = Cert.TokenMix.rowSum x wb b n := by
  rw [Read.val_main_v9_apply, Read.val_main_cst_1_apply]
  show Ideal.ofBits .f32 0x00000000#32 + _ = _
  rw [Ideal.ofBits_zero_f32, zero_add]
  unfold Cert.TokenMix.rowSum
  refine Finset.sum_congr rfl fun k _ => ?_
  have e : Read.idx_main_v9 (ix2 b n) k = ix3 b n k :=
    funext fun a => Fin.ext (by match a with | ⟨0, _⟩ => rfl | ⟨1, _⟩ => rfl | ⟨2, _⟩ => rfl)
  rw [e, v8_at]

/-- The denominator with a unit axis appended. -/
theorem v10_at (b : Fin 4) (n : Fin 4096) (z : Fin 1) :
    Read.val_main_v10 (F := Ideal) x wb (ix3 b n z) = Cert.TokenMix.rowSum x wb b n := by
  rw [Read.val_main_v10_apply]
  have e : Read.idx_main_v10 (ix3 b n z) = ix2 b n :=
    funext fun a => Fin.ext (by match a with | ⟨0, _⟩ => rfl | ⟨1, _⟩ => rfl)
  rw [e, v9_at]

/-- The denominator spread along the row. -/
theorem v11_at (b : Fin 4) (n m : Fin 4096) :
    Read.val_main_v11 (F := Ideal) x wb (ix3 b n m) = Cert.TokenMix.rowSum x wb b n := by
  rw [Read.val_main_v11_apply]
  have e : Read.idx_main_v11 (ix3 b n m) = ix3 b n (0 : Fin 1) :=
    funext fun a => Fin.ext (by match a with | ⟨0, _⟩ => rfl | ⟨1, _⟩ => rfl | ⟨2, _⟩ => rfl)
  rw [e, v10_at]

/-- The normalised weight. -/
theorem v12_at (b : Fin 4) (n m : Fin 4096) :
    Read.val_main_v12 (F := Ideal) x wb (ix3 b n m)
      = Ideal.div (Cert.TokenMix.weight x wb b n m) (Cert.TokenMix.rowSum x wb b n) := by
  rw [Read.val_main_v12_apply, v8_at, v11_at, Ideal.hostDivf_def]

/-- The third product, at (b, n, r): the projections mixed under the normalised weights. -/
theorem v13_at (b : Fin 4) (n : Fin 4096) (r : Fin 64) :
    Read.val_main_v13 (F := Ideal) x wb (ix3 b n r) = Cert.TokenMix.mixed x wb b n r := by
  rw [Read.val_main_v13_apply]
  unfold Cert.TokenMix.mixed
  refine Finset.sum_congr rfl fun k _ => ?_
  have el : Read.lidx_main_v13 (ix3 b n r) k = ix3 b n k :=
    funext fun a => Fin.ext (by match a with | ⟨0, _⟩ => rfl | ⟨1, _⟩ => rfl | ⟨2, _⟩ => rfl)
  have er : Read.ridx_main_v13 (ix3 b n r) k = ix3 b k r :=
    funext fun a => Fin.ext (by match a with | ⟨0, _⟩ => rfl | ⟨1, _⟩ => rfl | ⟨2, _⟩ => rfl)
  rw [el, er, v12_at, v0_at]

end Stages

/-- The last product, at (b, n, d): the mixture against row d of W_C. -/
theorem v14_at (x : (⟨S4x4096x512, .f32⟩ : BufTy).Contents (Elt Ideal)) (wb : (⟨S64x512, .f32⟩ : BufTy).Contents (Elt Ideal))
    (wc : (⟨S512x64, .f32⟩ : BufTy).Contents (Elt Ideal)) (b : Fin 4) (n : Fin 4096) (d : Fin 512) :
    Read.val_main_v14 (F := Ideal) x wb wc (ix3 b n d) = Cert.TokenMix.refAt x wb wc b n d := by
  rw [Read.val_main_v14_apply]
  unfold Cert.TokenMix.refAt
  refine Finset.sum_congr rfl fun k _ => ?_
  have el : Read.lidx_main_v14 (ix3 b n d) k = ix3 b n k :=
    funext fun a => Fin.ext (by match a with | ⟨0, _⟩ => rfl | ⟨1, _⟩ => rfl | ⟨2, _⟩ => rfl)
  have er : Read.ridx_main_v14 (ix3 b n d) k = ix2 d k :=
    funext fun a => Fin.ext (by match a with | ⟨0, _⟩ => rfl | ⟨1, _⟩ => rfl)
  rw [el, er, v13_at]

/-- The reference's last stage, read operation by operation, is the specification's `refOut`. -/
theorem val_is_refOut (x : (⟨S4x4096x512, .f32⟩ : BufTy).Contents (Elt Ideal)) (wb : (⟨S64x512, .f32⟩ : BufTy).Contents (Elt Ideal))
    (wc : (⟨S512x64, .f32⟩ : BufTy).Contents (Elt Ideal)) :
    Cert.ReferenceIdeal.Read.val_main_v14 (F := Ideal) x wb wc = Cert.TokenMix.refOut x wb wc := by
  funext i
  exact (congrArg (Read.val_main_v14 (F := Ideal) x wb wc) (ValueIdx.eq_ix3 i)).trans (v14_at x wb wc (i 0) (i 1) (i 2))

end Cert.ReferenceIdeal.RefValue

end
-- ==== Proof.Algebra.lean ====
import proofs.«415329_j43748536877633_3_alg».proof.Proof.Spec
import Mathlib.Data.EReal.Operations
import Mathlib.Data.EReal.Inv
import Mathlib.Data.Finset.Fold
import Mathlib.Algebra.BigOperators.Fin
import Mathlib.Algebra.Order.BigOperators.Group.Finset

noncomputable section

namespace Cert.TokenMix

open Idealize.ShloMosaic Idealize.ShloMosaic.ValueIdx

/-! ## Finite sums and maxima of real coercions -/

namespace Alg

/-- The coercion of a finite real sum is the sum of the coercions. -/
theorem coe_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- Adding a real constant to every entry adds it to the running maximum (the empty maximum ⊥ absorbs it). -/
theorem fold_max_add {ι : Type} (s : Finset ι) (f : ι → ℝ) (c : ℝ) :
    s.fold max ⊥ (fun i => ((f i + c : ℝ) : EReal)) = s.fold max ⊥ (fun i => (f i : EReal)) + (c : EReal) := by
  classical
  refine Finset.induction_on s ?_ ?_
  · rw [Finset.fold_empty, Finset.fold_empty, EReal.bot_add]
  · intro a s ha ih
    rw [Finset.fold_insert ha, Finset.fold_insert ha, ih, EReal.coe_add, max_add_add_right]

/-- The maximum of finitely many reals, over a non-empty index set, is a real. -/
theorem fold_max_coe {ι : Type} (s : Finset ι) (hs : s.Nonempty) (f : ι → ℝ) :
    ∃ M : ℝ, s.fold max ⊥ (fun i => (f i : EReal)) = (M : EReal) := by
  obtain ⟨a, ha⟩ := hs
  have hbot : (⊥ : EReal) < s.fold max ⊥ (fun i => (f i : EReal)) :=
    (Finset.lt_fold_max _).2 (Or.inr ⟨a, ha, EReal.bot_lt_coe _⟩)
  have htop : s.fold max ⊥ (fun i => (f i : EReal)) < ⊤ :=
    (Finset.fold_max_lt _).2 ⟨bot_lt_top, fun i _ => EReal.coe_lt_top _⟩
  exact ⟨_, (EReal.coe_toReal htop.ne hbot.ne').symm⟩

/-! ## The real-valued quantities -/

variable (X : SX.Idx → ℝ) (W : SWb.Idx → ℝ)

/-- The projection, over the reals. -/
def projR (b : Fin 4) (n : Fin 4096) (r : Fin 64) : ℝ := ∑ d : Fin 512, X (ix3 b n d) * W (ix2 r d)

/-- The score, over the reals. -/
def scoreR (b : Fin 4) (n m : Fin 4096) : ℝ := ∑ r : Fin 64, projR X W b n r * projR X W b m r

/-- The padded projection, over the reals: the projection, then the constant 1, then zeros. -/
def padR (b : Fin 4) (n : Fin 4096) (r : Fin 128) : ℝ :=
  if h : r.val < 64 then projR X W b n ⟨r.val, h⟩ else if r.val = 64 then 1 else 0

theorem padR_lt (b : Fin 4) (n : Fin 4096) (r : Fin 128) (h : r.val < 64) :
    padR X W b n r = projR X W b n ⟨r.val, h⟩ := by
  unfold padR; rw [dif_pos h]

theorem padR_eq (b : Fin 4) (n : Fin 4096) (r : Fin 128) (h : r.val = 64) : padR X W b n r = 1 := by
  unfold padR; rw [dif_neg (by omega), if_pos h]

theorem padR_gt (b : Fin 4) (n : Fin 4096) (r : Fin 128) (h : 64 < r.val) : padR X W b n r = 0 := by
  unfold padR; rw [dif_neg (by omega), if_neg (by omega)]

/-- The reference's projection of real inputs is the real projection. -/
theorem proj_coe (b : Fin 4) (n : Fin 4096) (r : Fin 64) :
    proj (fun i => (X i : EReal)) (fun i => (W i : EReal)) b n r = (projR X W b n r : EReal) := by
  unfold proj projR
  rw [coe_sum]
  exact Finset.sum_congr rfl fun d _ => (EReal.coe_mul _ _).symm

/-- The reference's score of real inputs is the real score. -/
theorem score_coe (b : Fin 4) (n m : Fin 4096) :
    score (fun i => (X i : EReal)) (fun i => (W i : EReal)) b n m = (scoreR X W b n m : EReal) := by
  unfold score scoreR
  rw [coe_sum]
  exact Finset.sum_congr rfl fun r _ => by rw [proj_coe, proj_coe, EReal.coe_mul]

/-- The padded projection array of real inputs is the real padded projection: below column 64 the weight row
    is W_B's and the constant is 0; from column 64 on every weight is 0, so the sum vanishes and only the
    constant remains. -/
theorem bpad_coe (b : Fin 4) (n : Fin 4096) (r : Fin 128) :
    bpad (fun i => (X i : EReal)) (wpad (fun i => (W i : EReal))) (ix3 b n r) = (padR X W b n r : EReal) := by
  show (∑ d : Fin 512, (X (ix3 b n d) : EReal) * wpad (fun i => (W i : EReal)) (ix2 r d)) + hot r = _
  by_cases h : r.val < 64
  · have hw : ∀ d : Fin 512, wpad (fun i => (W i : EReal)) (ix2 r d) = (W (ix2 ⟨r.val, h⟩ d) : EReal) := by
      intro d
      show (if h' : r.val < 64 then (W (ix2 ⟨r.val, h'⟩ d) : EReal) else 0) = _
      rw [dif_pos h]
    have hh : hot r = 0 := by unfold hot; rw [if_neg (by omega)]
    rw [padR_lt X W b n r h, hh, add_zero, ← proj_coe]
    unfold proj
    exact Finset.sum_congr rfl fun d _ => by rw [hw d]
  · have hw : ∀ d : Fin 512, wpad (fun i => (W i : EReal)) (ix2 r d) = 0 := by
      intro d
      show (if h' : r.val < 64 then (W (ix2 ⟨r.val, h'⟩ d) : EReal) else 0) = _
      rw [dif_neg h]
    have hs : (∑ d : Fin 512, (X (ix3 b n d) : EReal) * wpad (fun i => (W i : EReal)) (ix2 r d)) = 0 :=
      Finset.sum_eq_zero fun d _ => by rw [hw d, mul_zero]
    rw [hs, zero_add]
    unfold hot
    by_cases h64 : r.val = 64
    · rw [if_pos h64, padR_eq X W b n r h64, EReal.coe_one]
    · rw [if_neg h64, padR_gt X W b n r (by omega), EReal.coe_zero]

/-- Over the 128 padded columns two rows' product is their score plus 1: the first 64 columns give the score,
    column 64 gives 1 * 1, the rest 0. -/
theorem padR_sum (b : Fin 4) (n m : Fin 4096) :
    ∑ r : Fin 128, padR X W b n r * padR X W b m r = scoreR X W b n m + 1 := by
  have h := Fin.sum_univ_add (a := 64) (b := 64) (fun r : Fin (64 + 64) => padR X W b n r * padR X W b m r)
  refine h.trans ?_
  have h1 : ∑ i : Fin 64, padR X W b n (Fin.castAdd 64 i) * padR X W b m (Fin.castAdd 64 i) = scoreR X W b n m := by
    unfold scoreR
    exact Finset.sum_congr rfl fun i _ => by
      rw [padR_lt X W b n (Fin.castAdd 64 i) i.isLt, padR_lt X W b m (Fin.castAdd 64 i) i.isLt]
      rfl
  have h2 : ∑ i : Fin 64, padR X W b n (Fin.natAdd 64 i) * padR X W b m (Fin.natAdd 64 i) = 1 := by
    rw [Finset.sum_eq_single (0 : Fin 64)]
    · rw [padR_eq X W b n (Fin.natAdd 64 (0 : Fin 64)) (by rfl),
        padR_eq X W b m (Fin.natAdd 64 (0 : Fin 64)) (by rfl), mul_one]
    · intro i _ hi
      have hpos : 0 < i.val := Nat.pos_of_ne_zero fun h0 => hi (Fin.ext h0)
      have hv : (Fin.natAdd 64 i).val = 64 + i.val := Fin.coe_natAdd 64 i
      rw [padR_gt X W b n (Fin.natAdd 64 i) (by omega), zero_mul]
    · intro h0; exact absurd (Finset.mem_univ _) h0
  rw [h1, h2]

/-! ## Both arrangements as coercions of the real quantities -/

section Row
variable (b : Fin 4) (n : Fin 4096) (M : ℝ)
  (hM : (Finset.univ : Finset (Fin 4096)).fold max ⊥ (fun m => (scoreR X W b n m : EReal)) = (M : EReal))

/-- The kernel's score is the real score plus 1. -/
theorem rscore_coe (m : Fin 4096) :
    rscore (fun c => (padR X W b n c : EReal)) (fun m c => (padR X W b m c : EReal)) m
      = ((scoreR X W b n m + 1 : ℝ) : EReal) := by
  unfold rscore
  rw [← padR_sum, coe_sum]
  exact Finset.sum_congr rfl fun c _ => (EReal.coe_mul _ _).symm

include hM in
/-- The reference's row maximum is the real M. -/
theorem rowMax_coe : rowMax (fun i => (X i : EReal)) (fun i => (W i : EReal)) b n = (M : EReal) := by
  unfold rowMax
  rw [show (fun m => score (fun i => (X i : EReal)) (fun i => (W i : EReal)) b n m)
        = fun m => (scoreR X W b n m : EReal) from funext (score_coe X W b n)]
  exact hM

include hM in
/-- The kernel's row maximum is M + 1. -/
theorem rmax_coe : rmax (fun c => (padR X W b n c : EReal)) (fun m c => (padR X W b m c : EReal))
    = ((M + 1 : ℝ) : EReal) := by
  unfold rmax
  rw [show rscore (fun c => (padR X W b n c : EReal)) (fun m c => (padR X W b m c : EReal))
        = fun m => ((scoreR X W b n m + 1 : ℝ) : EReal) from funext (rscore_coe X W b n),
    fold_max_add, hM, EReal.coe_add]

include hM in
/-- The reference's weight is a real exponential. -/
theorem weight_coe (m : Fin 4096) :
    weight (fun i => (X i : EReal)) (fun i => (W i : EReal)) b n m
      = ((Real.exp (scoreR X W b n m - M) : ℝ) : EReal) := by
  unfold weight
  rw [score_coe, rowMax_coe X W b n M hM, ← EReal.coe_sub, Ideal.exp_coe]

include hM in
/-- The kernel's weight is the same real exponential: the two added ones cancel. -/
theorem rweight_coe (m : Fin 4096) :
    rweight (fun c => (padR X W b n c : EReal)) (fun m c => (padR X W b m c : EReal)) m
      = ((Real.exp (scoreR X W b n m - M) : ℝ) : EReal) := by
  unfold rweight
  rw [rscore_coe, rmax_coe X W b n M hM, ← EReal.coe_sub, Ideal.exp_coe, add_sub_add_right_eq_sub]

include hM in
/-- The kernel's one product, column by column. -/
theorem racc_coe (c : Fin 128) :
    racc (fun c => (padR X W b n c : EReal)) (fun m c => (padR X W b m c : EReal)) c
      = ((∑ m : Fin 4096, Real.exp (scoreR X W b n m - M) * padR X W b m c : ℝ) : EReal) := by
  unfold racc
  rw [coe_sum]
  exact Finset.sum_congr rfl fun m _ => by rw [rweight_coe X W b n M hM m, EReal.coe_mul]

include hM in
/-- The reference's denominator is the real sum of the weights. -/
theorem rowSum_coe : rowSum (fun i => (X i : EReal)) (fun i => (W i : EReal)) b n
    = ((∑ m : Fin 4096, Real.exp (scoreR X W b n m - M) : ℝ) : EReal) := by
  unfold rowSum
  rw [coe_sum]
  exact Finset.sum_congr rfl fun m _ => weight_coe X W b n M hM m

/-- The denominator is positive: every exponential is, and there is a key row. -/
theorem denom_pos : 0 < ∑ m : Fin 4096, Real.exp (scoreR X W b n m - M) :=
  Finset.sum_pos (fun m _ => Real.exp_pos _) ⟨0, Finset.mem_univ _⟩

include hM in
/-- The kernel's mixture, as a real. -/
theorem rmixed_coe (r : Fin 64) :
    rmixed (fun c => (padR X W b n c : EReal)) (fun m c => (padR X W b m c : EReal)) r
      = (((∑ m : Fin 4096, Real.exp (scoreR X W b n m - M) * projR X W b m r)
          * (1 / ∑ m : Fin 4096, Real.exp (scoreR X W b n m - M)) : ℝ) : EReal) := by
  have h64 : (∑ m : Fin 4096, Real.exp (scoreR X W b n m - M) * padR X W b m (⟨64, by decide⟩ : Fin 128))
      = ∑ m : Fin 4096, Real.exp (scoreR X W b n m - M) :=
    Finset.sum_congr rfl fun m _ => by rw [padR_eq X W b m _ rfl, mul_one]
  have hlt : (∑ m : Fin 4096, Real.exp (scoreR X W b n m - M) * padR X W b m (⟨r.val, by omega⟩ : Fin 128))
      = ∑ m : Fin 4096, Real.exp (scoreR X W b n m - M) * projR X W b m r :=
    Finset.sum_congr rfl fun m _ => by rw [padR_lt X W b m _ r.isLt]
  unfold rmixed
  rw [racc_coe X W b n M hM, racc_coe X W b n M hM, h64, hlt, Ideal.div_coe (denom_pos X W b n M).ne',
    ← EReal.coe_mul]

include hM in
/-- The reference's mixture, as a real. -/
theorem mixed_coe (r : Fin 64) :
    mixed (fun i => (X i : EReal)) (fun i => (W i : EReal)) b n r
      = ((∑ m : Fin 4096, Real.exp (scoreR X W b n m - M)
          * (1 / ∑ m : Fin 4096, Real.exp (scoreR X W b n m - M)) * projR X W b m r : ℝ) : EReal) := by
  unfold mixed
  rw [coe_sum]
  exact Finset.sum_congr rfl fun m _ => by
    rw [rowSum_coe X W b n M hM, Ideal.div_coe (denom_pos X W b n M).ne', weight_coe X W b n M hM, proj_coe,
      ← EReal.coe_mul, ← EReal.coe_mul]

end Row

/-- The kernel's mixture of the real padded projection is the reference's mixture. -/
theorem rmixed_eq_mixed (b : Fin 4) (n : Fin 4096) (r : Fin 64) :
    rmixed (fun c => (padR X W b n c : EReal)) (fun m c => (padR X W b m c : EReal)) r
      = mixed (fun i => (X i : EReal)) (fun i => (W i : EReal)) b n r := by
  obtain ⟨M, hM⟩ := fold_max_coe (Finset.univ : Finset (Fin 4096)) ⟨0, Finset.mem_univ _⟩
    (fun m => scoreR X W b n m)
  rw [rmixed_coe X W b n M hM, mixed_coe X W b n M hM, Finset.sum_mul]
  refine congrArg Real.toEReal ?_
  refine Finset.sum_congr rfl fun m _ => ?_
  ring

/-- One entry of the two result arrays. -/
theorem out_eq (wc : SWc.Idx → EReal) (b : Fin 4) (n : Fin 4096) (d : Fin 512) :
    kernOut (bpad (fun i => (X i : EReal)) (wpad (fun i => (W i : EReal)))) wc (ix3 b n d)
      = refOut (fun i => (X i : EReal)) (fun i => (W i : EReal)) wc (ix3 b n d) := by
  show rowOut (fun c => bpad (fun i => (X i : EReal)) (wpad (fun i => (W i : EReal))) (ix3 b n c))
      (fun m c => bpad (fun i => (X i : EReal)) (wpad (fun i => (W i : EReal))) (ix3 b m c))
      (fun r => wc (ix2 d r))
    = refAt (fun i => (X i : EReal)) (fun i => (W i : EReal)) wc b n d
  rw [show (fun c => bpad (fun i => (X i : EReal)) (wpad (fun i => (W i : EReal))) (ix3 b n c))
        = fun c => (padR X W b n c : EReal) from funext (bpad_coe X W b n),
    show (fun m c => bpad (fun i => (X i : EReal)) (wpad (fun i => (W i : EReal))) (ix3 b m c))
        = fun m c => (padR X W b m c : EReal) from funext fun m => funext (bpad_coe X W b m)]
  unfold rowOut refAt
  exact Finset.sum_congr rfl fun r _ => by rw [rmixed_eq_mixed]

end Alg

/-- On finite inputs the kernel's arrangement and the reference's compute the same array. -/
theorem kern_eq_ref (x : SX.Idx → EReal) (wb : SWb.Idx → EReal) (wc : SWc.Idx → EReal)
    (hx : ∀ i, ∃ a : ℝ, x i = (a : EReal)) (hw : ∀ i, ∃ a : ℝ, wb i = (a : EReal)) :
    kernOut (bpad x (wpad wb)) wc = refOut x wb wc := by
  choose X hX using hx
  choose W hW using hw
  obtain rfl : x = fun i => (X i : EReal) := funext hX
  obtain rfl : wb = fun i => (W i : EReal) := funext hW
  funext i
  obtain ⟨b, n, d, rfl⟩ : ∃ (b : Fin 4) (n : Fin 4096) (d : Fin 512), i = ix3 b n d :=
    ⟨i 0, i 1, i 2, eq_ix3 i⟩
  exact Alg.out_eq X W wc b n d

end Cert.TokenMix

end
-- ==== Proof.Finite.lean ====
import proofs.«415329_j43748536877633_3_alg».proof.Pre_finite_inputs
import Idealize.ShloMosaic.PureOps.Ideal
import Idealize.ShloMosaic.Lib.ReduceAll
import Idealize.ShloMosaic.Lib.ValueIdx

noncomputable section

namespace Cert.Pre_finite_inputs.Finite

open Cert.Pre_finite_inputs Idealize.ShloMosaic

variable [Cert.Pre_finite_inputs.Facts]

/-- The rank-0 shape has exactly one index. -/
instance : Subsingleton S_.Idx := ⟨fun a b => funext fun d => d.elim0⟩

/-- The single-precision pattern with all exponent bits set and no fraction bit is +∞. -/
theorem ofBits_inf : Ideal.ofBits .f32 0x7F800000#32 = (⊤ : EReal) := by
  simp [Ideal.ofBits, Ideal.ieee]

/-- An extended real with |x| < +∞ (strictly) is a real number: at ⊥ the absolute value max x (-x) is ⊤, at ⊤ too. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One `all (|x| < +∞)` over an array of any shape: where the reduction by `and` from 1 comes out 1, every
    entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 e i
  apply real_of_abs_lt_top
  rw [← ofBits_inf]
  exact hi

/-- Where the printed predicate is all ones, every entry of x and of W_B is a real number. -/
theorem real_of_pre (a0 : FVec Ideal S4x4096x512 .f32) (a1 : FVec Ideal S64x512 .f32) (a2 : FVec Ideal S512x64 .f32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h01, _⟩ := IntOp.andi_eq_one.1 h0
  obtain ⟨hx, hw⟩ := IntOp.andi_eq_one.1 h01
  exact ⟨real_of_all a0 _ _ _ hx, real_of_all a1 _ _ _ hw⟩

end Cert.Pre_finite_inputs.Finite

end
-- ==== Proof.lean ====
/-
  Low-rank token mixing: a two-call Pallas kernel against its einsum reference, equal on the extended reals for finite inputs.

  The reference projects each token onto 64 directions (proj = x · W_Bᵀ), scores every pair of tokens of a batch by the
  inner product of their projections, takes the row-wise softmax of the scores, mixes the projections under it and maps
  the mixture back through W_C.

  The kernel's first call stores the projection padded to 128 columns: columns 0..63 the projection, column 64 the constant 1
  (added by an indicator of the column), columns 65..127 zero (64 zero rows appended to W_B). Its second call, per block of 512
  query tokens, scores them against all 4096 tokens of the batch over the 128 padded columns — the reference's score plus 1 —,
  subtracts the row maximum and exponentiates, and multiplies the result against the padded projection ONCE: columns 0..63 of
  that product are the unnormalised mixture and column 64 is the sum of the weights, the softmax denominator; it divides the
  former by the latter and applies W_C.

  Why the two agree, for finite x and W_B: every projection is a real number; a score plus 1 minus the maximum of (scores plus 1)
  is the score minus the maximum of the scores, so the unnormalised weights are the reference's; their sum is a positive real,
  and (∑ w · proj) / (∑ w) = ∑ (w / ∑ w) · proj by distributivity over the reals. At an infinite input the shift by 1 and the
  distributivity both fail, which is where the precondition is used. W_C needs no finiteness: the two mixtures are already equal
  before it is applied.

  The frames of the two printed kernels are the generated ones; the reference's frame is its generated run with the result
  dropped; no idealization rewrite was applied, so the preservation claim is trivial.
-/
import proofs.«415329_j43748536877633_3_alg».proof.Defs
import proofs.«415329_j43748536877633_3_alg».proof.Proof.Gen.Kernel
import proofs.«415329_j43748536877633_3_alg».proof.Proof.Gen.Kernel.Skeleton
import proofs.«415329_j43748536877633_3_alg».proof.Proof.Gen.Kernel.Launch
import proofs.«415329_j43748536877633_3_alg».proof.Proof.Gen.Kernel.Points
import proofs.«415329_j43748536877633_3_alg».proof.Proof.Gen.Kernel.Frame
import proofs.«415329_j43748536877633_3_alg».proof.Proof.Gen.KernelIdeal
import proofs.«415329_j43748536877633_3_alg».proof.Proof.Gen.KernelIdeal.Skeleton
import proofs.«415329_j43748536877633_3_alg».proof.Proof.Gen.KernelIdeal.Launch
import proofs.«415329_j43748536877633_3_alg».proof.Proof.Gen.KernelIdeal.Points
import proofs.«415329_j43748536877633_3_alg».proof.Proof.Gen.KernelIdeal.Frame
import proofs.«415329_j43748536877633_3_alg».proof.Proof.Gen.ReferenceIdeal
import proofs.«415329_j43748536877633_3_alg».proof.Proof.Gen.ReferenceIdeal.Run
import proofs.«415329_j43748536877633_3_alg».proof.Proof.Gen.ReferenceIdeal.Read
import proofs.«415329_j43748536877633_3_alg».proof.Proof.Gen.Pre_finite_inputs
import proofs.«415329_j43748536877633_3_alg».proof.Proof.KernelValue
import proofs.«415329_j43748536877633_3_alg».proof.Proof.RefValue
import proofs.«415329_j43748536877633_3_alg».proof.Proof.Algebra
import proofs.«415329_j43748536877633_3_alg».proof.Proof.Finite
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on finite x, W_B and W_C, the kernel ends with `kernOut (bpad x (wpad W_B)) W_C` and the
    reference with `refOut x W_B W_C`: one array. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.val_is_refOut, (hagree c).1, (hagree c).2.1,
    (hagree c).2.2]
  obtain ⟨hx, hw⟩ := Cert.Pre_finite_inputs.Finite.real_of_pre _ _ _ (hpre c)
  exact (Cert.TokenMix.kern_eq_ref _ _ _ hx hw).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
